-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512x512 .f32) (main_arg15 : FVec F S512 .f32) (main_arg16 : FVec F S512 .f32) (main_arg17 : FVec F S512 .f32) (main_arg18 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S16384x512 .f32) (main_arg2 : FVec F S16384x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512x512 .f32) (main_arg13 : FVec F S512x512 .f32) (main_arg14 : FVec F S512x512 .f32) (main_arg15 : FVec F S512 .f32) (main_arg16 : FVec F S512 .f32) (main_arg17 : FVec F S512 .f32) (main_arg18 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩

abbrev nBuf : Space → Nat
  | .hbm => 33
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S2048, .f32⟩
  | .hbm, ⟨26, _⟩ => ⟨S512x2048, .f32⟩
  | .hbm, ⟨27, _⟩ => ⟨S512x2048, .bf16⟩
  | .hbm, ⟨28, _⟩ => ⟨S512x2048, .f32⟩
  | .hbm, ⟨29, _⟩ => ⟨S512x2048, .bf16⟩
  | .hbm, ⟨30, _⟩ => ⟨S1x2048, .f32⟩
  | .hbm, ⟨31, _⟩ => ⟨S16384x512, .f32⟩
  | .hbm, ⟨32, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S2048x512, .f32⟩
  | .hbm, ⟨20, _⟩ => ⟨S2048x512, .f32⟩
  | .hbm, ⟨21, _⟩ => ⟨S2048, .f32⟩
  | .hbm, ⟨22, _⟩ => ⟨S2048, .f32⟩
  | .hbm, ⟨23, _⟩ => ⟨S512x2048, .f32⟩
  | .hbm, ⟨24, _⟩ => ⟨S16384x2048, .f32⟩
  | .hbm, ⟨25, _⟩ => ⟨S512x2048, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S512x512_S512x512_S512x512_S512x512_S2048x512_d0 : Shape.Concatenates [S512x512, S512x512, S512x512, S512x512] S2048x512 0
  concatenates_S512_S512_S512_S512_S2048_d0 : Shape.Concatenates [S512, S512, S512, S512] S2048 0
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.KernelIdealFrame.lean ====
/-
  The frame of the LSTM kernel's program: every weakly fair execution terminates without a fault and leaves the
  nineteen argument arrays as they were.

  The program is twelve host operations (the stacked, transposed weights, the summed and stacked bias, its view as
  a row), then one pipelined region of 32 grid points.  None of the host operations writes an argument, so the
  region finds the arguments as launched.  At each point the body reads six input blocks (a 512-row block of the
  input, of the hidden state and of the cell state; the two weight arrays and the bias row whole) and overwrites
  its two 512-row output blocks whole, so what each output buffer holds afterwards is a function of the six input
  blocks alone.  That is all the pipeline's launch theorem asks of a body: the rest is its bookkeeping.
  Everything here holds at every float instance.
-/
import proofs.«167596_j6150393167883_1_alg».proof.Proof.Gen.KernelIdeal.Launch
import proofs.«167596_j6150393167883_1_alg».proof.Proof.Gen.KernelIdeal.Skeleton
import proofs.«167596_j6150393167883_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the twelve host operations. -/
abbrev V (c : Dev nD) (b : Ref sig .tc) : Buf (Elt F) ((c : Thread nD τ).loc b) := StableHlo.after hostOps0 (fun b => m (c, b)) b

/-- No host operation leaves a buffer at contents of the machine's choosing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host operations write: their twelve results, in program order. -/
def prefixWrites : List (Ref sig .tc) :=
  [main_v0, main_v1, main_v2, main_v3, main_v4, main_v5, main_v6, main_v7, main_v8, main_v9, main_v10, main_v11]

/-- A buffer that is none of those twelve results is found by the region as launched. -/
theorem V_kept (c : Dev nD) (b : Ref sig .tc) (hb : b ∉ prefixWrites) : V m c b = m ((c : Thread nD τ).loc b) :=
  StableHlo.after_of_forall_not_mem (b := Proc.devRef .tc b) _ _ (List.forall_iff_forall_mem.mp (by
    simp only [prefixWrites, List.mem_cons, List.not_mem_nil, or_false, not_or] at hb
    obtain ⟨h0, h1, h2, h3, h4, h5, h6, h7, h8, h9, h10, h11⟩ := hb
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9, StableHlo.devRef_ne_of_ne h10, StableHlo.devRef_ne_of_ne h11⟩))

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)
theorem V_main_arg14 (c : Dev nD) : V m c main_arg14 = m ((c : Thread nD τ).loc main_arg14) := V_kept m c main_arg14 (by decide)
theorem V_main_arg15 (c : Dev nD) : V m c main_arg15 = m ((c : Thread nD τ).loc main_arg15) := V_kept m c main_arg15 (by decide)
theorem V_main_arg16 (c : Dev nD) : V m c main_arg16 = m ((c : Thread nD τ).loc main_arg16) := V_kept m c main_arg16 (by decide)
theorem V_main_arg17 (c : Dev nD) : V m c main_arg17 = m ((c : Thread nD τ).loc main_arg17) := V_kept m c main_arg17 (by decide)
theorem V_main_arg18 (c : Dev nD) : V m c main_arg18 = m ((c : Thread nD τ).loc main_arg18) := V_kept m c main_arg18 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or kept it from an earlier point (the block index has not moved since the fetch). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the pipeline fetched it there
    or kept it from an earlier point (the block index has not moved since the fetch). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the pipeline fetched it there
    or kept it from an earlier point (the block index has not moved since the fetch). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the pipeline fetched it there
    or kept it from an earlier point (the block index has not moved since the fetch). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the pipeline fetched it there
    or kept it from an earlier point (the block index has not moved since the fetch). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the pipeline fetched it there
    or kept it from an earlier point (the block index has not moved since the fetch). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the pipeline -/

/-- From a run that ends with every staged array at what the pipeline's proof data computes and every other buffer as
    the region found it, the argument arrays are unchanged: the three staged arguments are input windows, whose arrays
    the pipeline only reads; the sixteen others are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in its two output buffers -/

/-- The whole of a [512, 512] buffer, of a [512, 2048] one and of the [1, 2048] row: the body's every access. -/
abbrev rB : Rect S512x512 := Rect.unit (s := S512x512) ![0, 0] S512x512.size inb_S512x512_S512x512_0_0
abbrev rW : Rect S512x2048 := Rect.unit (s := S512x2048) ![0, 0] S512x2048.size inb_S512x2048_S512x2048_0_0
abbrev rR : Rect S1x2048 := Rect.unit (s := S1x2048) ![0, 0] S1x2048.size inb_S1x2048_S1x2048_0_0

/-- The new hidden-state block, from the six input blocks: the body's one store into its first output buffer. -/
def out0_6 (x0 x1 x2 : Vec F S512x512 .f32) (x3 x4 : Vec F S512x2048 .bf16) (x5 : Vec F S1x2048 .f32) : Vec F S512x512 .f32 :=
  View.canon [⟨rB, k0_pay3 (View.ld x0 rB) (View.ld x1 rB) (View.ld x3 rW) (View.ld x4 rW) (View.ld x5 rR) (View.ld x2 rB)⟩]

/-- The new cell-state block: the body's one store into its second output buffer. -/
def out0_7 (x0 x1 x2 : Vec F S512x512 .f32) (x3 x4 : Vec F S512x2048 .bf16) (x5 : Vec F S1x2048 .f32) : Vec F S512x512 .f32 :=
  View.canon [⟨rB, k0_pay2 (View.ld x0 rB) (View.ld x1 rB) (View.ld x3 rW) (View.ld x4 rW) (View.ld x5 rR) (View.ld x2 rB)⟩]

/-- One store of the whole block covers the buffer. -/
theorem cover_whole (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 1000000 in
/-- The body, on whole staging buffers holding the six input blocks and two output buffers holding anything, runs to
    its end leaving the inputs as they were and the outputs at `out0_6` and `out0_7` of the inputs. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x0 x1 x2 : Vec F S512x512 .f32) (x3 x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The pipeline's proof data -/

/-- On core `c`: the arrays as the region finds them; after the body at point `t` each input's buffer at its block and
    each output's at its function of the six input blocks; nothing owed, full shares, and the invariant the pipeline's
    own (the buffers it does not stage, and the generator register, untouched). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every staged array at
    what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and the nineteen argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frame

end
-- ==== Proof.Cell.lean ====
/-
  The LSTM cell this certificate is about, as plain functions on the extended reals.

  For a batch row `r` and a hidden lane `j` the four gate pre-activations are
    z_g(r, j) = (Σ_k u[r,k] · W_g[j,k]) + (Σ_k h[r,k] · U_g[j,k]) + (bW_g[j] + b_g[j]),   g ∈ {i, f, g, o},
  and the new states are
    c'(r, j) = σ(z_f) · c[r, j] + σ(z_i) · tanh(z_g),        h'(r, j) = σ(z_o) · tanh(c'(r, j)),
  with σ x = 1 / (1 + e^(-x)).  The four weight matrices are stacked along their output axis and transposed
  (`stackT`, a [512, 2048] array whose column `512·g + j` is row `j` of matrix `g`), the four bias vectors are
  stacked into one of length 2048 (`stack`).  Both programs build exactly these stacked arrays, so they stay
  opaque here: nothing below ever reads a concatenation of matrices at an index.
-/
import Idealize.ShloMosaic.PureOps.Ideal
import Idealize.ShloMosaic.Lib.ValueIdx

noncomputable section

open scoped BigOperators

namespace Cert.Cell

open Idealize.ShloMosaic Idealize.ShloMosaic.ValueIdx

/-- Batch rows by hidden lanes. -/
abbrev SBH : Shape := ⟨2, ![16384, 512]⟩
/-- One weight matrix: output lane by input lane. -/
abbrev SW : Shape := ⟨2, ![512, 512]⟩
/-- Four weight matrices stacked along the output axis. -/
abbrev SW4 : Shape := ⟨2, ![2048, 512]⟩
/-- The stacked matrices transposed: input lane by stacked output lane. -/
abbrev SWT : Shape := ⟨2, ![512, 2048]⟩
/-- One bias vector, and four of them stacked. -/
abbrev SB : Shape := ⟨1, ![512]⟩
abbrev SB4 : Shape := ⟨1, ![2048]⟩

/-- Four [512, 512] matrices stack to a [2048, 512] one; four vectors of 512 to one of 2048; the stacked matrix
    transposes to [512, 2048]. -/
theorem stacksW : Shape.Concatenates [SW, SW, SW, SW] SW4 0 := by decide
theorem stacksB : Shape.Concatenates [SB, SB, SB, SB] SB4 0 := by decide
theorem transposesW : SW4.Transposes [1, 0] SWT := by decide

/-- Four matrices stacked along the output axis, then transposed. -/
def stackT (w0 w1 w2 w3 : SW.Idx → EReal) : SWT.Idx → EReal :=
  transpose SWT [1, 0] (concatenate SW4 0 [⟨SW, w0⟩, ⟨SW, w1⟩, ⟨SW, w2⟩, ⟨SW, w3⟩] stacksW) transposesW

/-- Four vectors stacked end to end. -/
def stack (b0 b1 b2 b3 : SB.Idx → EReal) : SB4.Idx → EReal :=
  concatenate SB4 0 [⟨SB, b0⟩, ⟨SB, b1⟩, ⟨SB, b2⟩, ⟨SB, b3⟩] stacksB

/-- Lane `j` of gate `g` among the 2048 stacked lanes. -/
def lane (g : Fin 4) (j : Fin 512) : Fin 2048 := ⟨512 * g.val + j.val, by omega⟩

/-- One gate pre-activation from a row of the input, a row of the hidden state, the matching columns of the two
    stacked-and-transposed weight arrays, and the bias. -/
def gate (urow hrow wcol ucol : Fin 512 → EReal) (b : EReal) : EReal :=
  ((∑ k, urow k * wcol k) + ∑ k, hrow k * ucol k) + b

/-- The new cell state from the input, forget and candidate pre-activations and the old cell state. -/
def cellNext (zi zf zg c : EReal) : EReal := Ideal.logistic zf * c + Ideal.logistic zi * Ideal.tanh zg

/-- The new hidden state from the output pre-activation and the new cell state. -/
def hidNext (zo cn : EReal) : EReal := Ideal.logistic zo * Ideal.tanh cn

/-- Pre-activation of stacked lane `J` for batch row `r`. -/
def pre (u h : SBH.Idx → EReal) (Wt Ut : SWT.Idx → EReal) (bW bE : SB4.Idx → EReal) (r : Fin 16384) (J : Fin 2048) : EReal :=
  gate (fun k => u (ix2 r k)) (fun k => h (ix2 r k)) (fun k => Wt (ix2 k J)) (fun k => Ut (ix2 k J)) (bW (ix1 J) + bE (ix1 J))

/-- The new cell state at row `r`, lane `j`. -/
def cAt (u h c : SBH.Idx → EReal) (Wt Ut : SWT.Idx → EReal) (bW bE : SB4.Idx → EReal) (r : Fin 16384) (j : Fin 512) : EReal :=
  cellNext (pre u h Wt Ut bW bE r (lane 0 j)) (pre u h Wt Ut bW bE r (lane 1 j)) (pre u h Wt Ut bW bE r (lane 2 j)) (c (ix2 r j))

/-- The new hidden state at row `r`, lane `j`. -/
def hAt (u h c : SBH.Idx → EReal) (Wt Ut : SWT.Idx → EReal) (bW bE : SB4.Idx → EReal) (r : Fin 16384) (j : Fin 512) : EReal :=
  hidNext (pre u h Wt Ut bW bE r (lane 3 j)) (cAt u h c Wt Ut bW bE r j)

/-- The whole new cell-state array. -/
def cOut (u h c : SBH.Idx → EReal) (Wt Ut : SWT.Idx → EReal) (bW bE : SB4.Idx → EReal) : SBH.Idx → EReal :=
  fun i => cAt u h c Wt Ut bW bE (i 0) (i 1)

/-- The whole new hidden-state array. -/
def hOut (u h c : SBH.Idx → EReal) (Wt Ut : SWT.Idx → EReal) (bW bE : SB4.Idx → EReal) : SBH.Idx → EReal :=
  fun i => hAt u h c Wt Ut bW bE (i 0) (i 1)

theorem cOut_ix2 (u h c : SBH.Idx → EReal) (Wt Ut : SWT.Idx → EReal) (bW bE : SB4.Idx → EReal) (r : Fin 16384) (j : Fin 512) :
    cOut u h c Wt Ut bW bE (ix2 r j) = cAt u h c Wt Ut bW bE r j := rfl

theorem hOut_ix2 (u h c : SBH.Idx → EReal) (Wt Ut : SWT.Idx → EReal) (bW bE : SB4.Idx → EReal) (r : Fin 16384) (j : Fin 512) :
    hOut u h c Wt Ut bW bE (ix2 r j) = hAt u h c Wt Ut bW bE r j := rfl

end Cert.Cell

end
-- ==== Proof.CellBody.lean ====
/-
  What the kernel body computes, read at one element of its 512-row block.

  The body multiplies the block's rows of the input and of the hidden state into the two resident weight arrays,
  adds the bias row, cuts the 2048 stacked lanes into the four gates, and applies the gate functions lane by
  lane.  At row `p` and lane `q` of the block this is the cell of `Cell.lean` on row `p`'s data.
-/
import proofs.«167596_j6150393167883_1_alg».proof.Proof.Gen.KernelIdeal.Skeleton
import proofs.«167596_j6150393167883_1_alg».proof.Proof.Cell
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-! ## The contraction's operand indices

The product contracts axis 1 of the left operand against axis 0 of the right one and has no batch axis: at output
index `i` and contraction position `q` the left operand is read at `(i 0, q)` and the right one at `(q, i 1)`. -/

theorem lhs_dot_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_dot_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_dot_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_dot_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- One product into the zero accumulator, at row `p` and column `J`: row `p` of the left operand against column `J`
    of the right one. -/
theorem matmul_zero_apply (a : FVec Ideal S512x512 .bf16) (b : FVec Ideal S512x2048 .bf16) (p : Fin 512) (J : Fin 2048) :
    matmul (F := Ideal) dot_S512x512_S512x2048_S512x2048_1_0_0_1_n_n none a b (constant (F := Ideal) S512x2048 .f32 0x00000000#32) (ix2 p J)
      = ∑ k : Fin 512, a (ix2 p k) * b (ix2 k J) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p J) ((contrEquiv1 dot_S512x512_S512x2048_S512x2048_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x2048_S512x2048_1_0_0_1_n_n.rhsIdx (ix2 p J) ((contrEquiv1 dot_S512x512_S512x2048_S512x2048_1_0_0_1_n_n 512 rfl rfl).symm k) = ix2 k J := funext fun a => Fin.ext (by
    match a with
    | ⟨0, _⟩ => exact (rhs_dot_0 _ _).trans hk
    | ⟨1, _⟩ => exact rhs_dot_1 _ _)
  rw [el, er]

/-! ## The pieces of the body that are not lane by lane -/

/-- The logistic function of a vector is taken element by element. -/
theorem logistic_at {s : Shape} {φ : FTy} (a : FVec Ideal s φ) (i : s.Idx) : logistic a i = Ideal.logistic (a i) := rfl

/-- The hyperbolic tangent of a vector is taken element by element. -/
theorem tanh_at {s : Shape} {φ : FTy} (a : FVec Ideal s φ) (i : s.Idx) : tanh a i = Ideal.tanh (a i) := rfl

/-- The four cuts of the 2048 stacked lanes: the cut that starts at lane `512·g` reads, at lane `q`, stacked lane
    `Cell.lane g q` of the same row. -/
theorem cut0_apply (X : FVec Ideal S512x2048 .f32) (p q : Fin 512) :
    extractStridedSlice S512x512 ![0, 0] X slices_S512x2048_o0_0_S512x512 (ix2 p q) = X (ix2 p (Cell.lane 0 q)) :=
  slice2_axis1_apply 0 X slices_S512x2048_o0_0_S512x512 p q (Cell.lane 0 q) rfl
theorem cut1_apply (X : FVec Ideal S512x2048 .f32) (p q : Fin 512) :
    extractStridedSlice S512x512 ![0, 512] X slices_S512x2048_o0_512_S512x512 (ix2 p q) = X (ix2 p (Cell.lane 1 q)) :=
  slice2_axis1_apply 512 X slices_S512x2048_o0_512_S512x512 p q (Cell.lane 1 q) rfl
theorem cut2_apply (X : FVec Ideal S512x2048 .f32) (p q : Fin 512) :
    extractStridedSlice S512x512 ![0, 1024] X slices_S512x2048_o0_1024_S512x512 (ix2 p q) = X (ix2 p (Cell.lane 2 q)) :=
  slice2_axis1_apply 1024 X slices_S512x2048_o0_1024_S512x512 p q (Cell.lane 2 q) rfl
theorem cut3_apply (X : FVec Ideal S512x2048 .f32) (p q : Fin 512) :
    extractStridedSlice S512x512 ![0, 1536] X slices_S512x2048_o0_1536_S512x512 (ix2 p q) = X (ix2 p (Cell.lane 3 q)) :=
  slice2_axis1_apply 1536 X slices_S512x2048_o0_1536_S512x512 p q (Cell.lane 3 q) rfl

/-- Pre-activation of stacked lane `J` for row `p` of the block: the row of the input block against column `J` of
    the first weight array, the row of the hidden block against column `J` of the second, plus entry `J` of the
    bias row. -/
def blkPre (x0 x2 : Vec Ideal S512x512 .f32) (x4 x6 : Vec Ideal S512x2048 .bf16) (x11 : Vec Ideal S1x2048 .f32)
    (p : Fin 512) (J : Fin 2048) : EReal :=
  Cell.gate (fun k => x0 (ix2 p k)) (fun k => x2 (ix2 p k)) (fun k => x4 (ix2 k J)) (fun k => x6 (ix2 k J)) (x11 (ix2 0 J))

/-- The summed products plus bias, at row `p` and stacked lane `J`. -/
theorem pay1_apply (x0 x2 : Vec Ideal S512x512 .f32) (x4 x6 : Vec Ideal S512x2048 .bf16) (x11 : Vec Ideal S1x2048 .f32)
    (p : Fin 512) (J : Fin 2048) :
    k0_pay1 (F := Ideal) x0 x2 x4 x6 x11 (ix2 p J) = blkPre x0 x2 x4 x6 x11 p J := by
  unfold k0_pay1
  rw [shapeCast_self x4, shapeCast_self x6, shapeCast_self x11, addf_apply, addf_apply, matmul_zero_apply,
    matmul_zero_apply, broadcastTo_1b_ab_apply]
  rfl

/-- The stored cell state at row `p`, lane `q`. -/
theorem pay2_apply (x0 x2 : Vec Ideal S512x512 .f32) (x4 x6 : Vec Ideal S512x2048 .bf16) (x11 : Vec Ideal S1x2048 .f32)
    (x23 : Vec Ideal S512x512 .f32) (p q : Fin 512) :
    k0_pay2 (F := Ideal) x0 x2 x4 x6 x11 x23 (ix2 p q)
      = Cell.cellNext (blkPre x0 x2 x4 x6 x11 p (Cell.lane 0 q)) (blkPre x0 x2 x4 x6 x11 p (Cell.lane 1 q))
          (blkPre x0 x2 x4 x6 x11 p (Cell.lane 2 q)) (x23 (ix2 p q)) := by
  unfold k0_pay2
  rw [addf_apply, mulf_apply, mulf_apply, logistic_at, logistic_at, tanh_at, cut0_apply, cut1_apply, cut2_apply,
    pay1_apply, pay1_apply, pay1_apply]
  rfl

/-- The stored hidden state at row `p`, lane `q`. -/
theorem pay3_apply (x0 x2 : Vec Ideal S512x512 .f32) (x4 x6 : Vec Ideal S512x2048 .bf16) (x11 : Vec Ideal S1x2048 .f32)
    (x23 : Vec Ideal S512x512 .f32) (p q : Fin 512) :
    k0_pay3 (F := Ideal) x0 x2 x4 x6 x11 x23 (ix2 p q)
      = Cell.hidNext (blkPre x0 x2 x4 x6 x11 p (Cell.lane 3 q))
          (Cell.cellNext (blkPre x0 x2 x4 x6 x11 p (Cell.lane 0 q)) (blkPre x0 x2 x4 x6 x11 p (Cell.lane 1 q))
            (blkPre x0 x2 x4 x6 x11 p (Cell.lane 2 q)) (x23 (ix2 p q))) := by
  unfold k0_pay3
  rw [mulf_apply, logistic_at, tanh_at, cut3_apply, pay1_apply, pay2_apply]
  rfl

end Cert.KernelIdeal.Body

end
-- ==== Proof.BiasRow.lean ====
/-
  The bias row the kernel is handed.

  The kernel's host code adds each gate's two bias vectors, stacks the four sums into one vector of 2048 lanes and
  views it as a [1, 2048] row.  Entry `J` of that row is the sum of entry `J` of the two stacked vectors: stacking
  commutes with adding lane by lane, because entry `J` of a stack is entry `J mod 512` of piece `J / 512` whichever
  vectors are stacked.
-/
import proofs.«167596_j6150393167883_1_alg».proof.Proof.Cell
import Idealize.ShloMosaic.Lib.ValueIdx
import Idealize.ShloMosaic.Lib.Pipeline.Value
import Idealize.ShloMosaic.Lib.ValueLayout

noncomputable section

namespace Cert.Cell

open Idealize.ShloMosaic Idealize.ShloMosaic.ValueIdx

/-- The [1, 2048] row. -/
abbrev SRow : Shape := ⟨2, ![1, 2048]⟩

/-- Entry `512·g + q` of a stack of four vectors is entry `q` of vector `g`. -/
theorem stack_lane (b0 b1 b2 b3 : SB.Idx → EReal) (g : Fin 4) (q : Fin 512) :
    stack b0 b1 b2 b3 (ix1 (lane g q)) = (![b0, b1, b2, b3] g) (ix1 q) := by
  -- the only axis is the stacking axis, so no coordinate lies off it
  have off : ∀ b : Fin SB.rank, b.cast (rfl : SB.rank = SB4.rank) ≠ (0 : Fin SB4.rank) →
      (ix1 q b).val = (ix1 (lane g q) (b.cast (rfl : SB.rank = SB4.rank))).val :=
    fun b hb => absurd (Fin.ext (by have hb1 : b.val < 1 := b.isLt; show b.val = 0; omega)) hb
  unfold stack
  -- piece g starts after g pieces of 512 entries each, and position 512·g + q is q past that start
  match g with
  | ⟨0, _⟩ =>
    exact concatenate_apply_piece (0 : Fin SB4.rank) [⟨SB, b0⟩, ⟨SB, b1⟩, ⟨SB, b2⟩, ⟨SB, b3⟩] stacksB
      (ix1 (lane ⟨0, _⟩ q)) 0 (by show 0 < 4; omega) SB b0 rfl rfl
      0 rfl (ix1 q) off (by show 0 + q.val = 512 * 0 + q.val; omega)
  | ⟨1, _⟩ =>
    exact concatenate_apply_piece (0 : Fin SB4.rank) [⟨SB, b0⟩, ⟨SB, b1⟩, ⟨SB, b2⟩, ⟨SB, b3⟩] stacksB
      (ix1 (lane ⟨1, _⟩ q)) 1 (by show 1 < 4; omega) SB b1 rfl rfl
      512 rfl (ix1 q) off (by show 512 + q.val = 512 * 1 + q.val; omega)
  | ⟨2, _⟩ =>
    exact concatenate_apply_piece (0 : Fin SB4.rank) [⟨SB, b0⟩, ⟨SB, b1⟩, ⟨SB, b2⟩, ⟨SB, b3⟩] stacksB
      (ix1 (lane ⟨2, _⟩ q)) 2 (by show 2 < 4; omega) SB b2 rfl rfl
      1024 rfl (ix1 q) off (by show 1024 + q.val = 512 * 2 + q.val; omega)
  | ⟨3, _⟩ =>
    exact concatenate_apply_piece (0 : Fin SB4.rank) [⟨SB, b0⟩, ⟨SB, b1⟩, ⟨SB, b2⟩, ⟨SB, b3⟩] stacksB
      (ix1 (lane ⟨3, _⟩ q)) 3 (by show 3 < 4; omega) SB b3 rfl rfl
      1536 rfl (ix1 q) off (by show 1536 + q.val = 512 * 3 + q.val; omega)

/-- Stacking commutes with adding lane by lane. -/
theorem stack_add (a0 a1 a2 a3 b0 b1 b2 b3 : SB.Idx → EReal) (J : Fin 2048) :
    stack (fun i => a0 i + b0 i) (fun i => a1 i + b1 i) (fun i => a2 i + b2 i) (fun i => a3 i + b3 i) (ix1 J)
      = stack a0 a1 a2 a3 (ix1 J) + stack b0 b1 b2 b3 (ix1 J) := by
  -- J is lane J mod 512 of piece J / 512
  obtain ⟨g, q, rfl⟩ : ∃ (g : Fin 4) (q : Fin 512), J = lane g q :=
    ⟨⟨J.val / 512, by have := J.isLt; omega⟩, ⟨J.val % 512, Nat.mod_lt _ (by decide)⟩,
      Fin.ext (by show J.val = 512 * (J.val / 512) + J.val % 512; omega)⟩
  rw [stack_lane, stack_lane, stack_lane]
  -- piece g of the stacked sums is the sum of the two pieces g
  match g with
  | ⟨0, _⟩ => rfl
  | ⟨1, _⟩ => rfl
  | ⟨2, _⟩ => rfl
  | ⟨3, _⟩ => rfl

/-- The stacked sums viewed as a row, at entry `J`. -/
theorem biasRow_apply (a0 a1 a2 a3 b0 b1 b2 b3 : SB.Idx → EReal) (h : SB4.ShapeCasts SRow) (J : Fin 2048) :
    shapeCast SRow (stack (fun i => a0 i + b0 i) (fun i => a1 i + b1 i) (fun i => a2 i + b2 i) (fun i => a3 i + b3 i)) h
        (ix2 (0 : Fin 1) J)
      = stack a0 a1 a2 a3 (ix1 J) + stack b0 b1 b2 b3 (ix1 J) := by
  -- (0, J) in [1, 2048] and (J) in [2048] sit at the same row-major position, J
  rw [shapeCast_apply _ h (ix2 (0 : Fin 1) J) (ix1 J) (by
    rw [Shape.rowMajor_val_one, Shape.rowMajor_val_two]
    show J.val = 0 * 2048 + J.val
    omega)]
  exact stack_add a0 a1 a2 a3 b0 b1 b2 b3 J

end Cert.Cell

end
-- ==== Proof.KernelIdealOut.lean ====
/-
  What the LSTM kernel's program leaves in its two result arrays, at the extended reals.

  The pipeline's run ends with each result array at what its 32 grid points wrote back, block by block.  Point `t`
  holds rows 512 t … 512 t + 511 of the input, hidden-state and cell-state arrays, the two weight arrays whole (the
  four projection matrices stacked and transposed, as the host operations before the region built them) and the bias
  row whole (each gate's two bias vectors added, stacked, viewed as a row).  The body's stored values at row `p`,
  lane `q` of the block are the cell of `Cell.lean` on row 512 t + p of the arrays, so point `t` writes back exactly
  its block of ONE whole-array function of the arguments; the 32 blocks tile the 16384 rows, so each result array IS
  that function: the cell's new hidden state, and its new cell state.
-/
import proofs.«167596_j6150393167883_1_alg».proof.Proof.KernelIdealFrame
import proofs.«167596_j6150393167883_1_alg».proof.Proof.Cell
import proofs.«167596_j6150393167883_1_alg».proof.Proof.CellBody
import proofs.«167596_j6150393167883_1_alg».proof.Proof.BiasRow
import Idealize.ShloMosaic.Lib.Pipeline.Value
import Idealize.ShloMosaic.Lib.ValueIdx
import Idealize.ShloMosaic.Lib.StableHlo.Run

noncomputable section

namespace Cert.KernelIdeal.Out

open Cert.KernelIdeal Cert.KernelIdeal.Gen Cert.KernelIdeal.Frame Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays, and the three arrays the host operations hand the kernel -/

/-- The nineteen argument arrays of core `c` as launched, each at its literal shape. -/
abbrev a0 (c : Dev nD) : Cell.SBH.Idx → EReal := m ((c : Thread nD τ).loc main_arg0)
abbrev a1 (c : Dev nD) : Cell.SBH.Idx → EReal := m ((c : Thread nD τ).loc main_arg1)
abbrev a2 (c : Dev nD) : Cell.SBH.Idx → EReal := m ((c : Thread nD τ).loc main_arg2)
abbrev a3 (c : Dev nD) : Cell.SW.Idx → EReal := m ((c : Thread nD τ).loc main_arg3)
abbrev a4 (c : Dev nD) : Cell.SB.Idx → EReal := m ((c : Thread nD τ).loc main_arg4)
abbrev a5 (c : Dev nD) : Cell.SW.Idx → EReal := m ((c : Thread nD τ).loc main_arg5)
abbrev a6 (c : Dev nD) : Cell.SB.Idx → EReal := m ((c : Thread nD τ).loc main_arg6)
abbrev a7 (c : Dev nD) : Cell.SW.Idx → EReal := m ((c : Thread nD τ).loc main_arg7)
abbrev a8 (c : Dev nD) : Cell.SB.Idx → EReal := m ((c : Thread nD τ).loc main_arg8)
abbrev a9 (c : Dev nD) : Cell.SW.Idx → EReal := m ((c : Thread nD τ).loc main_arg9)
abbrev a10 (c : Dev nD) : Cell.SB.Idx → EReal := m ((c : Thread nD τ).loc main_arg10)
abbrev a11 (c : Dev nD) : Cell.SW.Idx → EReal := m ((c : Thread nD τ).loc main_arg11)
abbrev a12 (c : Dev nD) : Cell.SW.Idx → EReal := m ((c : Thread nD τ).loc main_arg12)
abbrev a13 (c : Dev nD) : Cell.SW.Idx → EReal := m ((c : Thread nD τ).loc main_arg13)
abbrev a14 (c : Dev nD) : Cell.SW.Idx → EReal := m ((c : Thread nD τ).loc main_arg14)
abbrev a15 (c : Dev nD) : Cell.SB.Idx → EReal := m ((c : Thread nD τ).loc main_arg15)
abbrev a16 (c : Dev nD) : Cell.SB.Idx → EReal := m ((c : Thread nD τ).loc main_arg16)
abbrev a17 (c : Dev nD) : Cell.SB.Idx → EReal := m ((c : Thread nD τ).loc main_arg17)
abbrev a18 (c : Dev nD) : Cell.SB.Idx → EReal := m ((c : Thread nD τ).loc main_arg18)

/-- The first weight array the kernel is handed: the four input-projection matrices stacked and transposed (the
    narrowing to bf16 is the identity on the extended reals). -/
theorem V_main_v8 (c : Dev nD) : (V m c main_v8 : Cell.SWT.Idx → EReal) = Cell.stackT (a3 m c) (a5 m c) (a7 m c) (a9 m c) := by
  dsimp only [V, hostOps0]
  after_results
  rfl

/-- The second: the four hidden-projection matrices stacked and transposed. -/
theorem V_main_v10 (c : Dev nD) : (V m c main_v10 : Cell.SWT.Idx → EReal) = Cell.stackT (a11 m c) (a12 m c) (a13 m c) (a14 m c) := by
  dsimp only [V, hostOps0]
  after_results
  rfl

/-- The bias row: each gate's two bias vectors added, the four sums stacked, the stack viewed as a [1, 2048] row. -/
theorem V_main_v11 (c : Dev nD) : (V m c main_v11 : Cell.SRow.Idx → EReal)
    = shapeCast Cell.SRow (Cell.stack (fun i => a4 m c i + a15 m c i) (fun i => a6 m c i + a16 m c i)
        (fun i => a8 m c i + a17 m c i) (fun i => a10 m c i + a18 m c i)) shapeCasts_S2048_S1x2048 := by
  dsimp only [V, hostOps0]
  after_results
  rfl

/-! ## The blocks the body reads -/

theorem hz : (![0, 0] : Fin 2 → Nat) = fun _ => 0 := funext fun a => by fin_cases a <;> rfl

/-- The printed index maps over the 32 grid points: the three row-blocked inputs and the two outputs are at block
    (t, 0); the two weight arrays and the bias row are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s block is row `512 t + p` of the array. -/
def row (t : Fin cfg0.N) (p : Fin 512) : Fin 16384 := ⟨512 * t.val + p.val, by have := lt_of_lt_of_eq t.isLt N_0; omega⟩

/-- The six input blocks at point `t`, each at its literal shape. -/
abbrev uBlk (c : Dev nD) (t : Fin cfg0.N) : Vec Ideal S512x512 .f32 := iblk m c 0 t
abbrev hBlk (c : Dev nD) (t : Fin cfg0.N) : Vec Ideal S512x512 .f32 := iblk m c 1 t
abbrev cBlk (c : Dev nD) (t : Fin cfg0.N) : Vec Ideal S512x512 .f32 := iblk m c 2 t
abbrev wBlk (c : Dev nD) (t : Fin cfg0.N) : Vec Ideal S512x2048 .bf16 := iblk m c 3 t
abbrev vBlk (c : Dev nD) (t : Fin cfg0.N) : Vec Ideal S512x2048 .bf16 := iblk m c 4 t
abbrev bBlk (c : Dev nD) (t : Fin cfg0.N) : Vec Ideal S1x2048 .f32 := iblk m c 5 t

/-- The input block is rows 512 t … 512 t + 511 of the input array. -/
theorem uBlk_apply (c : Dev nD) (t : Fin cfg0.N) (p k : Fin 512) : uBlk m c t (ix2 p k) = a0 m c (ix2 (row t p) k) := by
  show V m c main_arg0 (((cfg0.win 0).blk t).view.emb (ix2 p k)) = _
  rw [V_main_arg0]
  refine congrArg (a0 m c) (funext fun a => Fin.ext ?_)
  obtain ⟨e0, e1, e2, e3, e4, e5, e6, e7, e8, e9, e10, e11, e12, e13, e14, e15⟩ := idx_facts t
  match a with
  | ⟨0, _⟩ => show win0_0.index t (0 : Fin 2) * 512 + 1 * p.val = 512 * t.val + p.val; omega
  | ⟨1, _⟩ => show win0_0.index t (1 : Fin 2) * 512 + 1 * k.val = k.val; omega

/-- The hidden-state block is the same rows of the hidden-state array. -/
theorem hBlk_apply (c : Dev nD) (t : Fin cfg0.N) (p k : Fin 512) : hBlk m c t (ix2 p k) = a1 m c (ix2 (row t p) k) := by
  show V m c main_arg1 (((cfg0.win 1).blk t).view.emb (ix2 p k)) = _
  rw [V_main_arg1]
  refine congrArg (a1 m c) (funext fun a => Fin.ext ?_)
  obtain ⟨e0, e1, e2, e3, e4, e5, e6, e7, e8, e9, e10, e11, e12, e13, e14, e15⟩ := idx_facts t
  match a with
  | ⟨0, _⟩ => show win0_1.index t (0 : Fin 2) * 512 + 1 * p.val = 512 * t.val + p.val; omega
  | ⟨1, _⟩ => show win0_1.index t (1 : Fin 2) * 512 + 1 * k.val = k.val; omega

/-- The cell-state block is the same rows of the cell-state array. -/
theorem cBlk_apply (c : Dev nD) (t : Fin cfg0.N) (p k : Fin 512) : cBlk m c t (ix2 p k) = a2 m c (ix2 (row t p) k) := by
  show V m c main_arg2 (((cfg0.win 2).blk t).view.emb (ix2 p k)) = _
  rw [V_main_arg2]
  refine congrArg (a2 m c) (funext fun a => Fin.ext ?_)
  obtain ⟨e0, e1, e2, e3, e4, e5, e6, e7, e8, e9, e10, e11, e12, e13, e14, e15⟩ := idx_facts t
  match a with
  | ⟨0, _⟩ => show win0_2.index t (0 : Fin 2) * 512 + 1 * p.val = 512 * t.val + p.val; omega
  | ⟨1, _⟩ => show win0_2.index t (1 : Fin 2) * 512 + 1 * k.val = k.val; omega

/-- The first weight block is the whole stacked and transposed input-projection array, at every point. -/
theorem wBlk_apply (c : Dev nD) (t : Fin cfg0.N) (k : Fin 512) (J : Fin 2048) : wBlk m c t (ix2 k J) = Cell.stackT (a3 m c) (a5 m c) (a7 m c) (a9 m c) (ix2 k J) := by
  show (V m c main_v8 : Cell.SWT.Idx → EReal) (((cfg0.win 3).blk t).view.emb (ix2 k J)) = _
  rw [V_main_v8]
  refine congrArg _ (funext fun a => Fin.ext ?_)
  obtain ⟨e0, e1, e2, e3, e4, e5, e6, e7, e8, e9, e10, e11, e12, e13, e14, e15⟩ := idx_facts t
  match a with
  | ⟨0, _⟩ => show win0_3.index t (0 : Fin 2) * 512 + 1 * k.val = k.val; omega
  | ⟨1, _⟩ => show win0_3.index t (1 : Fin 2) * 2048 + 1 * J.val = J.val; omega

/-- The second is the whole stacked and transposed hidden-projection array. -/
theorem vBlk_apply (c : Dev nD) (t : Fin cfg0.N) (k : Fin 512) (J : Fin 2048) : vBlk m c t (ix2 k J) = Cell.stackT (a11 m c) (a12 m c) (a13 m c) (a14 m c) (ix2 k J) := by
  show (V m c main_v10 : Cell.SWT.Idx → EReal) (((cfg0.win 4).blk t).view.emb (ix2 k J)) = _
  rw [V_main_v10]
  refine congrArg _ (funext fun a => Fin.ext ?_)
  obtain ⟨e0, e1, e2, e3, e4, e5, e6, e7, e8, e9, e10, e11, e12, e13, e14, e15⟩ := idx_facts t
  match a with
  | ⟨0, _⟩ => show win0_4.index t (0 : Fin 2) * 512 + 1 * k.val = k.val; omega
  | ⟨1, _⟩ => show win0_4.index t (1 : Fin 2) * 2048 + 1 * J.val = J.val; omega

/-- The bias block is the whole bias row: entry `J` is the sum of entry `J` of the two stacked bias vectors. -/
theorem bBlk_apply (c : Dev nD) (t : Fin cfg0.N) (J : Fin 2048) :
    bBlk m c t (ix2 (0 : Fin 1) J) = Cell.stack (a4 m c) (a6 m c) (a8 m c) (a10 m c) (ix1 J) + Cell.stack (a15 m c) (a16 m c) (a17 m c) (a18 m c) (ix1 J) := by
  show (V m c main_v11 : Cell.SRow.Idx → EReal) (((cfg0.win 5).blk t).view.emb (ix2 (0 : Fin 1) J)) = _
  rw [V_main_v11]
  have hemb : ((cfg0.win 5).blk t).view.emb (ix2 (0 : Fin 1) J) = ix2 (0 : Fin 1) J := by
    funext a; apply Fin.ext
    obtain ⟨e0, e1, e2, e3, e4, e5, e6, e7, e8, e9, e10, e11, e12, e13, e14, e15⟩ := idx_facts t
    match a with
    | ⟨0, _⟩ => show win0_5.index t (0 : Fin 2) * 1 + 1 * 0 = 0; omega
    | ⟨1, _⟩ => show win0_5.index t (1 : Fin 2) * 2048 + 1 * J.val = J.val; omega
  rw [hemb]
  exact Cell.biasRow_apply _ _ _ _ _ _ _ _ _ J

/-! ## The body's result at a point is the cell on that point's rows -/

/-- The block's pre-activation at row `p` is the cell's at row `512 t + p`. -/
theorem blkPre_eq (c : Dev nD) (t : Fin cfg0.N) (p : Fin 512) (J : Fin 2048) :
    Body.blkPre (uBlk m c t) (hBlk m c t) (wBlk m c t) (vBlk m c t) (bBlk m c t) p J = Cell.pre (a0 m c) (a1 m c) (Cell.stackT (a3 m c) (a5 m c) (a7 m c) (a9 m c)) (Cell.stackT (a11 m c) (a12 m c) (a13 m c) (a14 m c)) (Cell.stack (a4 m c) (a6 m c) (a8 m c) (a10 m c)) (Cell.stack (a15 m c) (a16 m c) (a17 m c) (a18 m c)) (row t p) J := by
  unfold Body.blkPre Cell.pre
  simp only [uBlk_apply, hBlk_apply, wBlk_apply, vBlk_apply, bBlk_apply]

/-- The stored cell state at row `p`, lane `q` of the block is the cell's at row `512 t + p`. -/
theorem cell_at (c : Dev nD) (t : Fin cfg0.N) (p q : Fin 512) :
    k0_pay2 (F := Ideal) (uBlk m c t) (hBlk m c t) (wBlk m c t) (vBlk m c t) (bBlk m c t) (cBlk m c t) (ix2 p q) = Cell.cAt (a0 m c) (a1 m c) (a2 m c) (Cell.stackT (a3 m c) (a5 m c) (a7 m c) (a9 m c)) (Cell.stackT (a11 m c) (a12 m c) (a13 m c) (a14 m c)) (Cell.stack (a4 m c) (a6 m c) (a8 m c) (a10 m c)) (Cell.stack (a15 m c) (a16 m c) (a17 m c) (a18 m c)) (row t p) q := by
  rw [Body.pay2_apply]
  unfold Cell.cAt
  rw [blkPre_eq, blkPre_eq, blkPre_eq, cBlk_apply]

/-- The stored hidden state likewise. -/
theorem hid_at (c : Dev nD) (t : Fin cfg0.N) (p q : Fin 512) :
    k0_pay3 (F := Ideal) (uBlk m c t) (hBlk m c t) (wBlk m c t) (vBlk m c t) (bBlk m c t) (cBlk m c t) (ix2 p q) = Cell.hAt (a0 m c) (a1 m c) (a2 m c) (Cell.stackT (a3 m c) (a5 m c) (a7 m c) (a9 m c)) (Cell.stackT (a11 m c) (a12 m c) (a13 m c) (a14 m c)) (Cell.stack (a4 m c) (a6 m c) (a8 m c) (a10 m c)) (Cell.stack (a15 m c) (a16 m c) (a17 m c) (a18 m c)) (row t p) q := by
  rw [Body.pay3_apply]
  unfold Cell.hAt Cell.cAt
  rw [blkPre_eq, blkPre_eq, blkPre_eq, blkPre_eq, cBlk_apply]

/-! ## The two result arrays -/

/-- The cell's new hidden-state and cell-state arrays of core `c`'s arguments. -/
abbrev hArr (c : Dev nD) : Cell.SBH.Idx → EReal := Cell.hOut (a0 m c) (a1 m c) (a2 m c) (Cell.stackT (a3 m c) (a5 m c) (a7 m c) (a9 m c)) (Cell.stackT (a11 m c) (a12 m c) (a13 m c) (a14 m c)) (Cell.stack (a4 m c) (a6 m c) (a8 m c) (a10 m c)) (Cell.stack (a15 m c) (a16 m c) (a17 m c) (a18 m c))
abbrev cArr (c : Dev nD) : Cell.SBH.Idx → EReal := Cell.cOut (a0 m c) (a1 m c) (a2 m c) (Cell.stackT (a3 m c) (a5 m c) (a7 m c) (a9 m c)) (Cell.stackT (a11 m c) (a12 m c) (a13 m c) (a14 m c)) (Cell.stack (a4 m c) (a6 m c) (a8 m c) (a10 m c)) (Cell.stack (a15 m c) (a16 m c) (a17 m c) (a18 m c))

/-- What point `t` writes back to the first result is its block of the cell's new hidden-state array. -/
theorem flushed6_eq (c : Dev nD) (t : Fin cfg0.N) :
    (dats m 0 c).flushed 6 t = ((cfg0.win 6).blk t).view.read (Elt Ideal) (hArr m c) := by
  show (cfg0.win 6).cut (grid0.coords t) ((dats m 0 c).after 6 t) = _
  rw [after0_6]
  unfold out0_6
  rw [View.canon_unit_zero hz]
  simp only [View.ld_unit_zero (S := S512x512) hz, View.ld_unit_zero (S := S512x2048) hz, View.ld_unit_zero (S := S1x2048) hz]
  funext j
  obtain ⟨p, q, rfl⟩ : ∃ (p q : Fin 512), j = ix2 p q := ⟨j 0, j 1, eq_ix2 j⟩
  show k0_pay3 (F := Ideal) (uBlk m c t) (hBlk m c t) (wBlk m c t) (vBlk m c t) (bBlk m c t) (cBlk m c t) (ix2 p q) = hArr m c (((cfg0.win 6).blk t).view.emb (ix2 p q))
  rw [hid_at m c t p q]
  have hemb : ((cfg0.win 6).blk t).view.emb (ix2 p q) = ix2 (row t p) q := by
    funext a; apply Fin.ext
    obtain ⟨e0, e1, e2, e3, e4, e5, e6, e7, e8, e9, e10, e11, e12, e13, e14, e15⟩ := idx_facts t
    match a with
    | ⟨0, _⟩ => show win0_6.index t (0 : Fin 2) * 512 + 1 * p.val = 512 * t.val + p.val; omega
    | ⟨1, _⟩ => show win0_6.index t (1 : Fin 2) * 512 + 1 * q.val = q.val; omega
  rw [hemb]
  rfl

/-- An index of the array lies in point `t`'s block iff each coordinate lies in the block's range on its axis. -/
theorem mem_blk6 (t : Fin cfg0.N) (i : S16384x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v12_0).slice (win0_6.rect t)).set ↔ _
  rw [View.set_slice_whole, Rect.mem_set_unit]
  exact Iff.rfl

/-- Row `r` of the array lies in the block of point `r / 512`: the 32 blocks of 512 rows tile the 16384 rows. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 32 := N_0
  refine ⟨⟨(i 0).val / 512, by rw [hN]; omega⟩, flush0_6 _, ?_⟩
  rw [mem_blk6]
  obtain ⟨e0, e1, e2, e3, e4, e5, e6, e7, e8, e9, e10, e11, e12, e13, e14, e15⟩ := idx_facts ⟨(i 0).val / 512, by rw [hN]; omega⟩
  intro a
  match a with
  | ⟨0, _⟩ =>
    show win0_6.index ⟨(i 0).val / 512, _⟩ (0 : Fin 2) * 512 ≤ (i 0).val ∧ (i 0).val < win0_6.index ⟨(i 0).val / 512, _⟩ (0 : Fin 2) * 512 + 512
    simp only at e0 e2 e4 e12 e14
    omega
  | ⟨1, _⟩ =>
    show win0_6.index ⟨(i 0).val / 512, _⟩ (1 : Fin 2) * 512 ≤ (i 1).val ∧ (i 1).val < win0_6.index ⟨(i 0).val / 512, _⟩ (1 : Fin 2) * 512 + 512
    omega

/-- After the run the array is the cell's new hidden state of the arguments: every point writes back its block of that one array, and the
    blocks cover it. -/
theorem final6 (c : Dev nD) : (dats m 0 c).arrAt 6 cfg0.N = hArr m c :=
  (dats m 0 c).arrAt_eq_of_cover 6 (hArr m c) (fun t _ => flushed6_eq m c t) cover6

/-- What point `t` writes back to the second result is its block of the cell's new cell-state array. -/
theorem flushed7_eq (c : Dev nD) (t : Fin cfg0.N) :
    (dats m 0 c).flushed 7 t = ((cfg0.win 7).blk t).view.read (Elt Ideal) (cArr m c) := by
  show (cfg0.win 7).cut (grid0.coords t) ((dats m 0 c).after 7 t) = _
  rw [after0_7]
  unfold out0_7
  rw [View.canon_unit_zero hz]
  simp only [View.ld_unit_zero (S := S512x512) hz, View.ld_unit_zero (S := S512x2048) hz, View.ld_unit_zero (S := S1x2048) hz]
  funext j
  obtain ⟨p, q, rfl⟩ : ∃ (p q : Fin 512), j = ix2 p q := ⟨j 0, j 1, eq_ix2 j⟩
  show k0_pay2 (F := Ideal) (uBlk m c t) (hBlk m c t) (wBlk m c t) (vBlk m c t) (bBlk m c t) (cBlk m c t) (ix2 p q) = cArr m c (((cfg0.win 7).blk t).view.emb (ix2 p q))
  rw [cell_at m c t p q]
  have hemb : ((cfg0.win 7).blk t).view.emb (ix2 p q) = ix2 (row t p) q := by
    funext a; apply Fin.ext
    obtain ⟨e0, e1, e2, e3, e4, e5, e6, e7, e8, e9, e10, e11, e12, e13, e14, e15⟩ := idx_facts t
    match a with
    | ⟨0, _⟩ => show win0_7.index t (0 : Fin 2) * 512 + 1 * p.val = 512 * t.val + p.val; omega
    | ⟨1, _⟩ => show win0_7.index t (1 : Fin 2) * 512 + 1 * q.val = q.val; omega
  rw [hemb]
  rfl

/-- An index of the array lies in point `t`'s block iff each coordinate lies in the block's range on its axis. -/
theorem mem_blk7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v12_1).slice (win0_7.rect t)).set ↔ _
  rw [View.set_slice_whole, Rect.mem_set_unit]
  exact Iff.rfl

/-- Row `r` of the array lies in the block of point `r / 512`: the 32 blocks of 512 rows tile the 16384 rows. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 32 := N_0
  refine ⟨⟨(i 0).val / 512, by rw [hN]; omega⟩, flush0_7 _, ?_⟩
  rw [mem_blk7]
  obtain ⟨e0, e1, e2, e3, e4, e5, e6, e7, e8, e9, e10, e11, e12, e13, e14, e15⟩ := idx_facts ⟨(i 0).val / 512, by rw [hN]; omega⟩
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    simp only at e0 e2 e4 e12 e14
    omega
  | ⟨1, _⟩ =>
    show win0_7.index ⟨(i 0).val / 512, _⟩ (1 : Fin 2) * 512 ≤ (i 1).val ∧ (i 1).val < win0_7.index ⟨(i 0).val / 512, _⟩ (1 : Fin 2) * 512 + 512
    omega

/-- After the run the array is the cell's new cell state of the arguments: every point writes back its block of that one array, and the
    blocks cover it. -/
theorem final7 (c : Dev nD) : (dats m 0 c).arrAt 7 cfg0.N = cArr m c :=
  (dats m 0 c).arrAt_eq_of_cover 7 (cArr m c) (fun t _ => flushed7_eq m c t) cover7

/-! ## The run, read -/

/-- Every weakly fair execution of the kernel's program at the extended reals terminates with the first result at the
    cell's new hidden state, the second at its new cell state, and the nineteen arguments unchanged. -/
theorem run : θ_run defs (onTc (τ := τ) (main (F := Ideal))) ⟨m, fun _ => 0, ρ⟩ fun r => ∀ c : Dev nD,
      r.2.mem ((c : Thread nD τ).loc main_v12_0) = hArr m c
      ∧ r.2.mem ((c : Thread nD τ).loc main_v12_1) = cArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Out

end
-- ==== Proof.CellRef.lean ====
/-
  What the reference program computes, read at one element of its results.

  The reference multiplies the whole input and hidden-state arrays into the stacked-and-transposed weights, adds the
  two stacked bias vectors one after the other, slices the four gates out of the 2048 stacked lanes and applies the
  gate functions, the logistic function spelt as 1 / (1 + e^(-x)).  At row `r` and lane `j` this is the cell of
  `Cell.lean`; the two bias vectors are added in turn where the cell adds their sum, which is associativity of
  addition on the extended reals.
-/
import proofs.«167596_j6150393167883_1_alg».proof.Proof.Gen.ReferenceIdeal.Read
import proofs.«167596_j6150393167883_1_alg».proof.Proof.Cell
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The stacked arrays

  Both stacked-and-transposed weight arrays and both stacked bias vectors are, term for term, the ones the cell is
  stated over: the same concatenation and the same transposition, under other names for the shapes. -/

section Stages

variable (x0 x1 x2 : Vec Ideal S16384x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 x12 x13 x14 : Vec Ideal S512x512 .f32) (x15 x16 x17 x18 : Vec Ideal S512 .f32)

theorem stackT_W : val_main_v4 (F := Ideal) x3 x5 x7 x9 = Cell.stackT x3 x5 x7 x9 := rfl
theorem stackT_U : val_main_v6 (F := Ideal) x11 x12 x13 x14 = Cell.stackT x11 x12 x13 x14 := rfl
theorem stack_bW : val_main_v2 (F := Ideal) x4 x6 x8 x10 = Cell.stack x4 x6 x8 x10 := rfl
theorem stack_bE : val_main_v3 (F := Ideal) x15 x16 x17 x18 = Cell.stack x15 x16 x17 x18 := rfl

/-! ## Where each operation reads its operands

  At the element (r, J) of a [16384, 2048] product the left factor is read along row `r` and the right factor down
  column `J`; a bias broadcast over the rows is read at lane `J`; the slice of gate `g` at (r, j) reads lane
  `512·g + j` of row `r`. -/

theorem lidx_v5 (r : Fin 16384) (J : Fin 2048) (k : Fin 512) : lidx_main_v5 (ix2 r J) k = ix2 r k :=
  funext fun a => Fin.ext (by match a with | ⟨0, _⟩ => rfl | ⟨1, _⟩ => rfl)
theorem ridx_v5 (r : Fin 16384) (J : Fin 2048) (k : Fin 512) : ridx_main_v5 (ix2 r J) k = ix2 k J :=
  funext fun a => Fin.ext (by match a with | ⟨0, _⟩ => rfl | ⟨1, _⟩ => rfl)
theorem lidx_v7 (r : Fin 16384) (J : Fin 2048) (k : Fin 512) : lidx_main_v7 (ix2 r J) k = ix2 r k :=
  funext fun a => Fin.ext (by match a with | ⟨0, _⟩ => rfl | ⟨1, _⟩ => rfl)
theorem ridx_v7 (r : Fin 16384) (J : Fin 2048) (k : Fin 512) : ridx_main_v7 (ix2 r J) k = ix2 k J :=
  funext fun a => Fin.ext (by match a with | ⟨0, _⟩ => rfl | ⟨1, _⟩ => rfl)
theorem bidx_W (r : Fin 16384) (J : Fin 2048) : idx_main_v9 (idx_main_v10 (ix2 r J)) = ix1 J :=
  funext fun a => Fin.ext (by match a with | ⟨0, _⟩ => rfl)
theorem bidx_E (r : Fin 16384) (J : Fin 2048) : idx_main_v12 (idx_main_v13 (ix2 r J)) = ix1 J :=
  funext fun a => Fin.ext (by match a with | ⟨0, _⟩ => rfl)
theorem sidx_v15 (r : Fin 16384) (j : Fin 512) : idx_main_v15 (ix2 r j) = ix2 r (Cell.lane 0 j) :=
  funext fun a => Fin.ext (by match a with | ⟨0, _⟩ => rfl | ⟨1, _⟩ => (show j.val = 512 * (0 : Fin 4).val + j.val; simp))
theorem sidx_v16 (r : Fin 16384) (j : Fin 512) : idx_main_v16 (ix2 r j) = ix2 r (Cell.lane 1 j) :=
  funext fun a => Fin.ext (by match a with | ⟨0, _⟩ => rfl | ⟨1, _⟩ => (show 512 + j.val = 512 * (1 : Fin 4).val + j.val; simp))
theorem sidx_v17 (r : Fin 16384) (j : Fin 512) : idx_main_v17 (ix2 r j) = ix2 r (Cell.lane 2 j) :=
  funext fun a => Fin.ext (by match a with | ⟨0, _⟩ => rfl | ⟨1, _⟩ => (show 1024 + j.val = 512 * (2 : Fin 4).val + j.val; simp))
theorem sidx_v18 (r : Fin 16384) (j : Fin 512) : idx_main_v18 (ix2 r j) = ix2 r (Cell.lane 3 j) :=
  funext fun a => Fin.ext (by match a with | ⟨0, _⟩ => rfl | ⟨1, _⟩ => (show 1536 + j.val = 512 * (3 : Fin 4).val + j.val; simp))

/-- The word 0x3F800000 is the number one. -/
theorem one_word : Ideal.ofBits .f32 0x3F800000#32 = 1 := IdealRules.sign_bit.ideal_onePat .f32

/-! ## The pre-activations

  The reference adds the two bias vectors one after the other, the cell adds their sum: associativity. -/

theorem pre_apply (r : Fin 16384) (J : Fin 2048) :
    val_main_v14 (F := Ideal) x0 x1 x3 x4 x5 x6 x7 x8 x9 x10 x11 x12 x13 x14 x15 x16 x17 x18 (ix2 r J) = Cell.pre x0 x1 (Cell.stackT x3 x5 x7 x9) (Cell.stackT x11 x12 x13 x14) (Cell.stack x4 x6 x8 x10) (Cell.stack x15 x16 x17 x18) r J := by
  rw [val_main_v14_apply, val_main_v13_apply, val_main_v12_apply, val_main_v11_apply, val_main_v10_apply,
    val_main_v9_apply, val_main_v8_apply, val_main_v7_apply, val_main_v5_apply, bidx_W, bidx_E, stackT_W, stackT_U,
    stack_bW, stack_bE]
  simp only [lidx_v5, ridx_v5, lidx_v7, ridx_v7, Ideal.addf_def]
  unfold Cell.pre Cell.gate
  exact add_assoc _ _ _

/-! ## The gates

  Each logistic gate is spelt 1 / (1 + e^(-z)) with 1 a broadcast literal, which is the logistic function's
  definition once the literal is read as the number one. -/

theorem gate_i (r : Fin 16384) (j : Fin 512) :
    val_main_v24 (F := Ideal) x0 x1 x3 x4 x5 x6 x7 x8 x9 x10 x11 x12 x13 x14 x15 x16 x17 x18 (ix2 r j) = Ideal.logistic (Cell.pre x0 x1 (Cell.stackT x3 x5 x7 x9) (Cell.stackT x11 x12 x13 x14) (Cell.stack x4 x6 x8 x10) (Cell.stack x15 x16 x17 x18) r (Cell.lane 0 j)) := by
  rw [val_main_v24_apply, val_main_v23_apply, val_main_cst_0_apply, val_main_v22_apply, val_main_v21_apply,
    val_main_cst_apply, val_main_v20_apply, val_main_v19_apply, val_main_v15_apply, sidx_v15, pre_apply]
  simp only [Ideal.hostDivf_def, Ideal.addf_def, Ideal.hostUnary_exp_def, Ideal.hostNegf_def, Ideal.negf_def,
    Ideal.ofBits_def, one_word]
  rfl

theorem gate_f (r : Fin 16384) (j : Fin 512) :
    val_main_v30 (F := Ideal) x0 x1 x3 x4 x5 x6 x7 x8 x9 x10 x11 x12 x13 x14 x15 x16 x17 x18 (ix2 r j) = Ideal.logistic (Cell.pre x0 x1 (Cell.stackT x3 x5 x7 x9) (Cell.stackT x11 x12 x13 x14) (Cell.stack x4 x6 x8 x10) (Cell.stack x15 x16 x17 x18) r (Cell.lane 1 j)) := by
  rw [val_main_v30_apply, val_main_v29_apply, val_main_cst_2_apply, val_main_v28_apply, val_main_v27_apply,
    val_main_cst_1_apply, val_main_v26_apply, val_main_v25_apply, val_main_v16_apply, sidx_v16, pre_apply]
  simp only [Ideal.hostDivf_def, Ideal.addf_def, Ideal.hostUnary_exp_def, Ideal.hostNegf_def, Ideal.negf_def,
    Ideal.ofBits_def, one_word]
  rfl

theorem gate_o (r : Fin 16384) (j : Fin 512) :
    val_main_v37 (F := Ideal) x0 x1 x3 x4 x5 x6 x7 x8 x9 x10 x11 x12 x13 x14 x15 x16 x17 x18 (ix2 r j) = Ideal.logistic (Cell.pre x0 x1 (Cell.stackT x3 x5 x7 x9) (Cell.stackT x11 x12 x13 x14) (Cell.stack x4 x6 x8 x10) (Cell.stack x15 x16 x17 x18) r (Cell.lane 3 j)) := by
  rw [val_main_v37_apply, val_main_v36_apply, val_main_cst_4_apply, val_main_v35_apply, val_main_v34_apply,
    val_main_cst_3_apply, val_main_v33_apply, val_main_v32_apply, val_main_v18_apply, sidx_v18, pre_apply]
  simp only [Ideal.hostDivf_def, Ideal.addf_def, Ideal.hostUnary_exp_def, Ideal.hostNegf_def, Ideal.negf_def,
    Ideal.ofBits_def, one_word]
  rfl

theorem gate_g (r : Fin 16384) (j : Fin 512) :
    val_main_v31 (F := Ideal) x0 x1 x3 x4 x5 x6 x7 x8 x9 x10 x11 x12 x13 x14 x15 x16 x17 x18 (ix2 r j) = Ideal.tanh (Cell.pre x0 x1 (Cell.stackT x3 x5 x7 x9) (Cell.stackT x11 x12 x13 x14) (Cell.stack x4 x6 x8 x10) (Cell.stack x15 x16 x17 x18) r (Cell.lane 2 j)) := by
  rw [val_main_v31_apply, val_main_v17_apply, sidx_v17, pre_apply]
  rfl

end Stages

/-- The reference's new cell state at row `r`, lane `j`. -/
theorem ref_c_apply (x0 x1 x2 : Vec Ideal S16384x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 x12 x13 x14 : Vec Ideal S512x512 .f32) (x15 x16 x17 x18 : Vec Ideal S512 .f32) (r : Fin 16384) (j : Fin 512) :
    val_main_v40 (F := Ideal) x0 x1 x2 x3 x4 x5 x6 x7 x8 x9 x10 x11 x12 x13 x14 x15 x16 x17 x18 (ix2 r j)
      = Cell.cAt x0 x1 x2 (Cell.stackT x3 x5 x7 x9) (Cell.stackT x11 x12 x13 x14) (Cell.stack x4 x6 x8 x10)
          (Cell.stack x15 x16 x17 x18) r j := by
  rw [val_main_v40_apply, val_main_v39_apply, val_main_v38_apply, gate_f, gate_i, gate_g]
  rfl

/-- The reference's new hidden state at row `r`, lane `j`. -/
theorem ref_h_apply (x0 x1 x2 : Vec Ideal S16384x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 x12 x13 x14 : Vec Ideal S512x512 .f32) (x15 x16 x17 x18 : Vec Ideal S512 .f32) (r : Fin 16384) (j : Fin 512) :
    val_main_v42 (F := Ideal) x0 x1 x2 x3 x4 x5 x6 x7 x8 x9 x10 x11 x12 x13 x14 x15 x16 x17 x18 (ix2 r j)
      = Cell.hAt x0 x1 x2 (Cell.stackT x3 x5 x7 x9) (Cell.stackT x11 x12 x13 x14) (Cell.stack x4 x6 x8 x10)
          (Cell.stack x15 x16 x17 x18) r j := by
  rw [val_main_v42_apply, val_main_v41_apply, ref_c_apply, gate_o]
  rfl

/-- The reference's new cell-state array is the cell's. -/
theorem ref_c (x0 x1 x2 : Vec Ideal S16384x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 x12 x13 x14 : Vec Ideal S512x512 .f32) (x15 x16 x17 x18 : Vec Ideal S512 .f32) :
    val_main_v40 (F := Ideal) x0 x1 x2 x3 x4 x5 x6 x7 x8 x9 x10 x11 x12 x13 x14 x15 x16 x17 x18
      = Cell.cOut x0 x1 x2 (Cell.stackT x3 x5 x7 x9) (Cell.stackT x11 x12 x13 x14) (Cell.stack x4 x6 x8 x10)
          (Cell.stack x15 x16 x17 x18) := by
  funext i
  obtain ⟨r, j, rfl⟩ : ∃ (r : Fin 16384) (j : Fin 512), i = ix2 r j := ⟨i 0, i 1, eq_ix2 i⟩
  exact ref_c_apply x0 x1 x2 x3 x4 x5 x6 x7 x8 x9 x10 x11 x12 x13 x14 x15 x16 x17 x18 r j

/-- The reference's new hidden-state array is the cell's. -/
theorem ref_h (x0 x1 x2 : Vec Ideal S16384x512 .f32) (x3 : Vec Ideal S512x512 .f32) (x4 : Vec Ideal S512 .f32) (x5 : Vec Ideal S512x512 .f32) (x6 : Vec Ideal S512 .f32) (x7 : Vec Ideal S512x512 .f32) (x8 : Vec Ideal S512 .f32) (x9 : Vec Ideal S512x512 .f32) (x10 : Vec Ideal S512 .f32) (x11 x12 x13 x14 : Vec Ideal S512x512 .f32) (x15 x16 x17 x18 : Vec Ideal S512 .f32) :
    val_main_v42 (F := Ideal) x0 x1 x2 x3 x4 x5 x6 x7 x8 x9 x10 x11 x12 x13 x14 x15 x16 x17 x18
      = Cell.hOut x0 x1 x2 (Cell.stackT x3 x5 x7 x9) (Cell.stackT x11 x12 x13 x14) (Cell.stack x4 x6 x8 x10)
          (Cell.stack x15 x16 x17 x18) := by
  funext i
  obtain ⟨r, j, rfl⟩ : ∃ (r : Fin 16384) (j : Fin 512), i = ix2 r j := ⟨i 0, i 1, eq_ix2 i⟩
  exact ref_h_apply x0 x1 x2 x3 x4 x5 x6 x7 x8 x9 x10 x11 x12 x13 x14 x15 x16 x17 x18 r j

end Cert.ReferenceIdeal.RefValue

end
-- ==== Proof.lean ====
/-
  The certificate of one fused LSTM cell step: a Pallas kernel against its jnp reference.

  Inputs: a batch of 16384 rows of an input `u`, a hidden state `h` and a cell state `c`, each of 512 lanes; four
  input-projection matrices and four hidden-projection matrices of 512 × 512; per gate two bias vectors of 512.
  Both programs stack the four matrices of a kind along their output axis and transpose, so that one product of a
  row with the stacked array gives all four gates' 2048 lanes at once, and both compute, for row `r` and lane `j`,
      z_g = Σ_k u[r,k] · W_g[j,k] + Σ_k h[r,k] · U_g[j,k] + bW_g[j] + b_g[j]          (g = i, f, g, o)
      c'  = σ(z_f) · c[r,j] + σ(z_i) · tanh z_g,        h' = σ(z_o) · tanh c'.
  They differ in how they get there.  The kernel narrows its operands to bf16 and multiplies 512 rows at a time on
  the matrix unit, in 32 grid points; it adds each gate's two bias vectors on the host BEFORE stacking and adds the
  one sum; it applies the logistic function as one operation.  The reference multiplies the whole arrays, adds the
  two stacked bias vectors one after the other, and spells the logistic function 1 / (1 + e^(-x)).  On the extended
  reals a narrowing is the identity, a matrix product is the sum of products whatever its tiling, the logistic
  operation is 1 / (1 + e^(-x)) by definition, and (s + a) + b = s + (a + b): the two programs end with equal
  results, element by element, with no condition on the inputs.  (`Cell.lean` states the cell; `CellBody.lean` reads
  the kernel's body at an element, `KernelIdealOut.lean` its two result arrays, `CellRef.lean` the reference's.)

  The three frames: each kernel program is twelve host operations writing fresh buffers and one pipelined region
  whose body reads six input blocks and overwrites two output blocks (`KernelFrame.lean`, `KernelIdealFrame.lean`);
  the reference is host operations only.  The kernel's idealization rewrote nothing, so there is nothing to preserve.
-/
import proofs.«167596_j6150393167883_1_alg».proof.Defs
import proofs.«167596_j6150393167883_1_alg».proof.Proof.Gen.Kernel
import proofs.«167596_j6150393167883_1_alg».proof.Proof.Gen.KernelIdeal
import proofs.«167596_j6150393167883_1_alg».proof.Proof.Gen.ReferenceIdeal
import proofs.«167596_j6150393167883_1_alg».proof.Proof.Gen.Pre_finite_inputs
import proofs.«167596_j6150393167883_1_alg».proof.Proof.Gen.ReferenceIdeal.Run
import proofs.«167596_j6150393167883_1_alg».proof.Proof.Gen.ReferenceIdeal.Read
import proofs.«167596_j6150393167883_1_alg».proof.Proof.KernelFrame
import proofs.«167596_j6150393167883_1_alg».proof.Proof.KernelIdealFrame
import proofs.«167596_j6150393167883_1_alg».proof.Proof.KernelIdealOut
import proofs.«167596_j6150393167883_1_alg».proof.Proof.CellRef
import Idealize.ShloMosaic.Adequacy
import Idealize.ShloMosaic.Init

noncomputable section

namespace Cert.Proof

open Idealize.ShloMosaic Idealize.SL.Sem

/-- The word-level kernel program runs to its end and leaves its arguments unchanged. -/
theorem frame_kernel : Cert.frame_Kernel := fun m ρ _ => Cert.Kernel.Frame.frame m ρ

/-- So does the kernel program read at the extended reals. -/
theorem frame_kernelIdeal : Cert.frame_KernelIdeal := fun m ρ _ => Cert.KernelIdeal.Frame.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the nineteen arguments both programs end with the cell's new hidden state and new
    cell state of those arguments: the kernel's two result arrays by the pipeline's run read block by block, the
    reference's by its run read operation by operation. -/
theorem algebraic : Cert.algebraic_KernelIdeal_ReferenceIdeal := by
  intro m ρ m' ρ' _ hagree
  refine ⟨fun c => Cert.KernelIdeal.Out.hArr m c, fun c => Cert.KernelIdeal.Out.cArr m c, Cert.KernelIdeal.Out.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v42_eq, Cert.ReferenceIdeal.RefValue.ref_h,
      h0, h1, h2, h3, h4, h5, h6, h7, h8, h9, h10, h11, h12, h13, h14, h15, h16, h17, h18]
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.ref_c,
      h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
